-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x512 : Shape := ⟨2, ![262144, 512]⟩
abbrev S512 : Shape := ⟨1, ![512]⟩
abbrev S512x512 : Shape := ⟨2, ![512, 512]⟩
abbrev S_ : Shape := ⟨0, ![]⟩

class Facts : Prop where
  bcast_S_S262144x512 : S_.BroadcastsInDim S262144x512 (![] : Fin 0 → Fin S262144x512.rank)
  reducesTo_S262144x512_S_d0_1 : S262144x512.ReducesTo [0, 1] S_
  h_S_ : 0 < S_.numel
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_

variable [Facts]

def fn_part1 {F : FTy → Type} [FloatOps F] (main_arg4 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  main_v23

def fn {F : FTy → Type} [FloatOps F] (main_arg0 : FVec F S262144x512 .f32) (main_arg1 : FVec F S512 .f32) (main_arg2 : FVec F S512 .f32) (main_arg3 : FVec F S512x512 .f32) (main_arg4 : FVec F S512 .f32) : IVec S_ 1 :=
  let main_v0 : FVec F S262144x512 .f32 := Host.absf main_arg0
  let main_cst : FVec F S_ .f32 := constant S_ .f32 0x7F800000#32
  let main_v1 : FVec F S262144x512 .f32 := broadcastInDim S262144x512 ![] bcast_S_S262144x512 main_cst
  let main_v2 : IVec S262144x512 1 := cmpf .olt main_v0 main_v1
  let main_c : IVec S_ 1 := constantI S_ 1 1#1
  let main_v3 : IVec S_ 1 := (fun x v => Host.reduce IntOp.andi x v reducesTo_S262144x512_S_d0_1 h_S_) main_v2 main_c
  let main_v4 : FVec F S512 .f32 := Host.absf main_arg1
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_v13 main_v16
-- ==== Kernel.lean ====
abbrev S262144x512 : Shape := ⟨2, ![262144, 512]⟩
abbrev S512 : Shape := ⟨1, ![512]⟩
abbrev S512x512 : Shape := ⟨2, ![512, 512]⟩
abbrev S1x512 : Shape := ⟨2, ![1, 512]⟩
abbrev S2048x512 : Shape := ⟨2, ![2048, 512]⟩
abbrev S2048 : Shape := ⟨1, ![2048]⟩
abbrev S2048x1 : Shape := ⟨2, ![2048, 1]⟩

abbrev nBuf : Space → Nat
  | .hbm => 10
  | .vmem => 8
  | .smem => 0
  | _ => 0

abbrev bufTy : (tb : Table) → Fin (tcTables nBuf tb) → BufTy
  | .hbm, ⟨0, _⟩ => ⟨S262144x512, .f32⟩
  | .hbm, ⟨1, _⟩ => ⟨S512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x512, .bf16⟩
  | .hbm, ⟨6, _⟩ => ⟨S1x512, .f32⟩
  | .hbm, ⟨7, _⟩ => ⟨S1x512, .f32⟩
  | .hbm, ⟨8, _⟩ => ⟨S1x512, .f32⟩
  | .hbm, ⟨9, _⟩ => ⟨S262144x512, .f32⟩
  | .local _ .vmem, ⟨0, _⟩ => ⟨S2048x512, .f32⟩
  | .local _ .vmem, ⟨1, _⟩ => ⟨S2048x512, .f32⟩
  | .local _ .vmem, ⟨2, _⟩ => ⟨S1x512, .f32⟩
  | .local _ .vmem, ⟨3, _⟩ => ⟨S1x512, .f32⟩
  | .local _ .vmem, ⟨4, _⟩ => ⟨S512x512, .bf16⟩
  | .local _ .vmem, ⟨5, _⟩ => ⟨S1x512, .f32⟩
  | .local _ .vmem, ⟨6, _⟩ => ⟨S2048x512, .f32⟩
  | .local _ .vmem, ⟨7, _⟩ => ⟨S2048x512, .f32⟩
  | _, _ => ⟨S262144x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  shapeCasts_S512_S1x512 : S512.ShapeCasts S1x512
  inb_S2048x512_S2048x512_0_0 : ∀ a, (![0, 0] : Fin 2 → Nat) a + S2048x512.size a ≤ S2048x512.size a
  h_S2048x512 : 0 < S2048x512.numel
  reduces_S2048x512_S2048 : S2048x512.Reduces [1] S2048
  shapeCasts_S2048_S2048x1 : S2048.ShapeCasts S2048x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S2048x1_S2048x512 : S2048x1.Broadcasts S2048x512
  broadcasts_S1x512_S2048x512 : S1x512.Broadcasts S2048x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S262144x512.size a
  hwx0_0 : ∀ i : grid0.Coords, EltTy.bits .f32 = 32 ∨ (Rect.block (s := S262144x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x512.size a
  hwx0_1 : ∀ i : grid0.Coords, EltTy.bits .f32 = 32 ∨ (Rect.block (s := S1x512) S1x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x512.size a ≤ S262144x512.size a
  hwx0_5 : ∀ i : grid0.Coords, EltTy.bits .f32 = 32 ∨ (Rect.block (s := S262144x512) S2048x512.size (cc0_transform_5 i) (hinb0_5 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S2048x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where
  halias0_5 : Pipeline.Aliased win0 0 5

variable [Facts]
-- ==== ReferenceIdeal.lean ====
abbrev S262144x512 : Shape := ⟨2, ![262144, 512]⟩
abbrev S512 : Shape := ⟨1, ![512]⟩
abbrev S512x512 : Shape := ⟨2, ![512, 512]⟩
abbrev S_ : Shape := ⟨0, ![]⟩
abbrev S262144 : Shape := ⟨1, ![262144]⟩
abbrev S262144x1 : Shape := ⟨2, ![262144, 1]⟩
abbrev S1x512 : Shape := ⟨2, ![1, 512]⟩

abbrev nBuf : Space → Nat
  | .hbm => 42
  | .vmem => 0
  | .smem => 0
  | _ => 0

abbrev bufTy : (tb : Table) → Fin (tcTables nBuf tb) → BufTy
  | .hbm, ⟨0, _⟩ => ⟨S262144x512, .f32⟩
  | .hbm, ⟨1, _⟩ => ⟨S512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S_, .f32⟩
  | .hbm, ⟨6, _⟩ => ⟨S262144, .f32⟩
  | .hbm, ⟨7, _⟩ => ⟨S262144x1, .f32⟩
  | .hbm, ⟨8, _⟩ => ⟨S_, .f32⟩
  | .hbm, ⟨9, _⟩ => ⟨S262144x1, .f32⟩
  | .hbm, ⟨10, _⟩ => ⟨S262144x1, .f32⟩
  | .hbm, ⟨11, _⟩ => ⟨S262144x512, .f32⟩
  | .hbm, ⟨12, _⟩ => ⟨S262144x512, .f32⟩
  | .hbm, ⟨13, _⟩ => ⟨S262144x512, .f32⟩
  | .hbm, ⟨14, _⟩ => ⟨S_, .f32⟩
  | .hbm, ⟨15, _⟩ => ⟨S262144, .f32⟩
  | .hbm, ⟨16, _⟩ => ⟨S262144x1, .f32⟩
  | .hbm, ⟨17, _⟩ => ⟨S_, .f32⟩
  | .hbm, ⟨18, _⟩ => ⟨S262144x1, .f32⟩
  | .hbm, ⟨19, _⟩ => ⟨S262144x1, .f32⟩
  | .hbm, ⟨20, _⟩ => ⟨S262144x512, .f32⟩
  | .hbm, ⟨21, _⟩ => ⟨S262144x512, .f32⟩
  | .hbm, ⟨22, _⟩ => ⟨S_, .f32⟩
  | .hbm, ⟨23, _⟩ => ⟨S262144x1, .f32⟩
  | .hbm, ⟨24, _⟩ => ⟨S262144x1, .f32⟩
  | .hbm, ⟨25, _⟩ => ⟨S262144x1, .f32⟩
  | .hbm, ⟨26, _⟩ => ⟨S262144x512, .f32⟩
  | .hbm, ⟨27, _⟩ => ⟨S262144x512, .f32⟩
  | .hbm, ⟨28, _⟩ => ⟨S1x512, .f32⟩
  | .hbm, ⟨29, _⟩ => ⟨S262144x512, .f32⟩
  | .hbm, ⟨30, _⟩ => ⟨S262144x512, .f32⟩
  | .hbm, ⟨31, _⟩ => ⟨S1x512, .f32⟩
  | .hbm, ⟨32, _⟩ => ⟨S262144x512, .f32⟩
  | .hbm, ⟨33, _⟩ => ⟨S262144x512, .f32⟩
  | .hbm, ⟨34, _⟩ => ⟨S_, .f32⟩
  | .hbm, ⟨35, _⟩ => ⟨S262144x512, .f32⟩
  | .hbm, ⟨36, _⟩ => ⟨S262144x512, .f32⟩
  | .hbm, ⟨37, _⟩ => ⟨S262144x512, .f32⟩
  | .hbm, ⟨38, _⟩ => ⟨S262144x512, .f32⟩
  | .hbm, ⟨39, _⟩ => ⟨S1x512, .f32⟩
  | .hbm, ⟨40, _⟩ => ⟨S262144x512, .f32⟩
  | .hbm, ⟨41, _⟩ => ⟨S262144x512, .f32⟩
  | _, _ => ⟨S262144x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_call0_cst : Ref sig .tc := ⟨.hbm, 34, rfl⟩
abbrev main_call0_v0 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]

class Facts₀ : Prop where
  reducesTo_S262144x512_S262144_d1 : S262144x512.ReducesTo [1] S262144
  h_S_ : 0 < S_.numel
  bcast_S262144_S262144x1_0 : S262144.BroadcastsInDim S262144x1 (![0] : Fin 1 → Fin S262144x1.rank)
  bcast_S_S262144x1 : S_.BroadcastsInDim S262144x1 (![] : Fin 0 → Fin S262144x1.rank)
  bcast_S262144x1_S262144x512_0_1 : S262144x1.BroadcastsInDim S262144x512 (![0, 1] : Fin 2 → Fin S262144x512.rank)
  bcast_S512_S1x512_1 : S512.BroadcastsInDim S1x512 (![1] : Fin 1 → Fin S1x512.rank)
  bcast_S1x512_S262144x512_0_1 : S1x512.BroadcastsInDim S262144x512 (![0, 1] : Fin 2 → Fin S262144x512.rank)
  bcast_S_S262144x512 : S_.BroadcastsInDim S262144x512 (![] : Fin 0 → Fin S262144x512.rank)
  dot_S262144x512_S512x512_S262144x512_1_0_0_1_n_n_wf : DotDims.WF S262144x512 S512x512 S262144x512 [1] [0] [0] [1] [] []

variable [Facts₀]

def dot_S262144x512_S512x512_S262144x512_1_0_0_1_n_n : DotDims S262144x512 S512x512 S262144x512 where
  lhsContracting := [1]
  rhsContracting := [0]
  lhsNonContracting := [0]
  rhsNonContracting := [1]
  lhsBatch := []
  rhsBatch := []
  wf := dot_S262144x512_S512x512_S262144x512_1_0_0_1_n_n_wf

class Facts : Prop extends Facts₀ where

variable [Facts]
-- ==== Proof.LibCenteredMoment.lean ====
/-
  The second-moment identity behind a one-pass variance, on the extended reals.

  For a finite family `x` of REAL numbers with mean `μ = (∑ x) / N` over `N = card` entries,
      (∑ (x k - μ)²) / N  =  (∑ x k²) / N  -  μ².
  The left side is the variance as it is defined (the mean of squared deviations, two passes over the data), the
  right side the one-pass form (the mean of the squares less the square of the mean). Expanding the square,
      ∑ (x k - μ)² = ∑ x k² - 2 μ ∑ x k + N μ²,   and   ∑ x k = N μ,
  so the middle and last terms combine to `- N μ²`.

  On the extended reals the identity needs every entry FINITE: with an infinite entry the two sides are sums and
  differences of infinities, and distributivity, on which the expansion rests, fails there. Division by `N` is
  written as the product with the real `1 / N`, which is what a division by a nonzero real is on every extended real.
-/
import Idealize.ShloMosaic.PureOps.Ideal

noncomputable section

namespace CenteredMoment

/-- A finite sum of real numbers, each read as an extended real, is the real sum read as an extended real. -/
theorem coe_sum {ι : Type*} (s : Finset ι) (f : ι → ℝ) :
    (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- The identity over the reals: the mean of the squared deviations from the mean is the mean of the squares less the
    square of the mean. `N` is the number of entries as a real number. -/
theorem real_identity (n : ℕ) (N : ℝ) (hN : (n : ℝ) = N) (h0 : N ≠ 0) (a : Fin n → ℝ) :
    (∑ k, (a k - (∑ l, a l) * (1 / N)) * (a k - (∑ l, a l) * (1 / N))) * (1 / N)
      = (∑ k, a k * a k) * (1 / N) - ((∑ l, a l) * (1 / N)) * ((∑ l, a l) * (1 / N)) := by
  -- the mean, and the sum in terms of it
  have hS : ∑ l, a l = N * ((∑ l, a l) * (1 / N)) := by field_simp
  generalize (∑ l, a l) * (1 / N) = μ at hS ⊢
  -- the square expanded under the sum
  have hexp : ∑ k, (a k - μ) * (a k - μ) = ∑ k, a k * a k - 2 * μ * ∑ k, a k + N * (μ * μ) := by
    have hk : ∀ k, (a k - μ) * (a k - μ) = a k * a k - 2 * μ * a k + μ * μ := fun k => by ring
    simp only [hk, Finset.sum_add_distrib, Finset.sum_sub_distrib, ← Finset.mul_sum, Finset.sum_const,
      Finset.card_univ, Fintype.card_fin, nsmul_eq_mul, hN]
    ring
  rw [hexp, hS]
  field_simp
  ring

/-- The identity on the extended reals, for a family whose every entry is a real number. -/
theorem ereal_identity (n : ℕ) (N : ℝ) (hN : (n : ℝ) = N) (h0 : N ≠ 0) (x : Fin n → EReal)
    (hx : ∀ k, ∃ r : ℝ, x k = (r : EReal)) :
    (∑ k, (x k - (∑ l, x l) * ((1 / N : ℝ) : EReal)) * (x k - (∑ l, x l) * ((1 / N : ℝ) : EReal))) * ((1 / N : ℝ) : EReal)
      = (∑ k, x k * x k) * ((1 / N : ℝ) : EReal)
          - ((∑ l, x l) * ((1 / N : ℝ) : EReal)) * ((∑ l, x l) * ((1 / N : ℝ) : EReal)) := by
  choose a ha using hx
  obtain rfl : x = fun k => ((a k : ℝ) : EReal) := funext ha
  simp only [coe_sum, ← EReal.coe_mul, ← EReal.coe_sub]
  exact congrArg _ (real_identity n N hN h0 a)

end CenteredMoment

end
-- ==== Proof.RowSpec.lean ====
/-
  The residual block, one row at a time, on the extended reals.

  For a row `v` of 512 entries, a scale `s`, a shift `b`, a 512 × 512 matrix `W` and a bias `c`:
      μ      = (∑ v) / 512                                  the row's mean,
      σ²     = the row's variance,
      h k    = max ((v k - μ) · rsqrt (σ² + ε) · s k + b k, 0)   the normalised row, scaled, shifted, clipped at zero,
      out q  = v q + ∑ₖ h k · W k q + c q                   the row through the matrix, added back onto the row.
  Only the row's own entries enter its output, so the whole array is this function row by row, however the rows are
  grouped into blocks.

  The variance is written two ways. `varTwoPass` is the mean of the squared deviations from the mean; `varOnePass` is
  the mean of the squares less the square of the mean. They are the same number when every entry of the row is a real
  number (`var_eq`: the second-moment identity); with an infinite entry they need not be. The product
  `(v k - μ) · r · s k` is likewise grouped two ways, `(v k - μ) · (r · s k)` and `((v k - μ) · r) · s k`: those agree on
  every extended real, multiplication there being associative. A division by 512 is the product with `1/512`.
-/
import proofs.«421731_j87170656240159_3_alg».proof.Proof.LibCenteredMoment
import Idealize.ShloMosaic.PureOps.Ideal.Laws
import Idealize.ShloMosaic.Lib.ValueIdx

noncomputable section

namespace ResidualRow

open Idealize.ShloMosaic Idealize.ShloMosaic.ValueIdx

/-! ## The constants -/

/-- The pattern of `512.0` denotes the real 512. -/
theorem ofBits_512 : Ideal.ofBits .f32 0x44000000#32 = ((512 : ℝ) : EReal) := by
  simp [Ideal.ofBits, Ideal.ieee, -EReal.coe_mul]; norm_num

/-- The pattern of `0.001953125` denotes the real 1/512 exactly: it is the power of two `2⁻⁹`. -/
theorem ofBits_inv512 : Ideal.ofBits .f32 0x3B000000#32 = ((1 / 512 : ℝ) : EReal) := by
  simp [Ideal.ofBits, Ideal.ieee, -EReal.coe_mul]; norm_num

/-- The reciprocal of the row length, as an extended real. -/
abbrev inv512 : EReal := ((1 / 512 : ℝ) : EReal)

/-- The small constant added to the variance: the same pattern in both programs, so what it denotes is never needed. -/
abbrev eps : EReal := Ideal.ofBits .f32 0x358637BD#32

/-- Dividing by the real 512 is multiplying by 1/512, on every extended real. -/
theorem div_512 (x : EReal) : Ideal.div x ((512 : ℝ) : EReal) = x * inv512 :=
  Ideal.div_coe (by norm_num) x

/-! ## A row's mean and variance -/

/-- The mean of a row. -/
def mean (v : Fin 512 → EReal) : EReal := (∑ k, v k) * inv512

/-- The variance as the mean of the squares less the square of the mean. -/
def varOnePass (v : Fin 512 → EReal) : EReal := (∑ k, v k * v k) * inv512 - mean v * mean v

/-- The variance as the mean of the squared deviations from the mean. -/
def varTwoPass (v : Fin 512 → EReal) : EReal := (∑ k, (v k - mean v) * (v k - mean v)) * inv512

/-- For a row of real numbers the two are one number. -/
theorem var_eq (v : Fin 512 → EReal) (hv : ∀ k, ∃ r : ℝ, v k = (r : EReal)) : varTwoPass v = varOnePass v :=
  CenteredMoment.ereal_identity 512 512 (by norm_num) (by norm_num) v hv

/-! ## The normalised, clipped row, and the output row -/

/-- The clipped normalised row, the scale folded into the reciprocal root first, over the one-pass variance. -/
def hiddenOnePass (v s b : Fin 512 → EReal) (k : Fin 512) : EReal :=
  max ((v k - mean v) * (Ideal.rsqrt (varOnePass v + eps) * s k) + b k) 0

/-- The clipped normalised row, normalised first and scaled after, over the two-pass variance. -/
def hiddenTwoPass (v s b : Fin 512 → EReal) (k : Fin 512) : EReal :=
  max ((v k - mean v) * Ideal.rsqrt (varTwoPass v + eps) * s k + b k) 0

theorem hidden_eq (v s b : Fin 512 → EReal) (hv : ∀ k, ∃ r : ℝ, v k = (r : EReal)) :
    hiddenTwoPass v s b = hiddenOnePass v s b := by
  funext k
  unfold hiddenTwoPass hiddenOnePass
  rw [var_eq v hv, mul_assoc]

/-- The output row over the one-pass form. -/
def rowOnePass (v s b : Fin 512 → EReal) (W : Fin 512 → Fin 512 → EReal) (c : Fin 512 → EReal) (q : Fin 512) : EReal :=
  v q + ∑ k, hiddenOnePass v s b k * W k q + c q

/-- The output row over the two-pass form. -/
def rowTwoPass (v s b : Fin 512 → EReal) (W : Fin 512 → Fin 512 → EReal) (c : Fin 512 → EReal) (q : Fin 512) : EReal :=
  v q + ∑ k, hiddenTwoPass v s b k * W k q + c q

theorem row_eq (v s b : Fin 512 → EReal) (W : Fin 512 → Fin 512 → EReal) (c : Fin 512 → EReal)
    (hv : ∀ k, ∃ r : ℝ, v k = (r : EReal)) : rowTwoPass v s b W c = rowOnePass v s b W c := by
  funext q
  unfold rowTwoPass rowOnePass
  rw [hidden_eq v s b hv]

/-! ## The whole array, row by row -/

/-- Row `r` of a 262144 × 512 array. -/
abbrev rowOf (X : (⟨2, ![262144, 512]⟩ : Shape).Idx → EReal) (r : Fin 262144) : Fin 512 → EReal := fun k => X (ix2 r k)

/-- A length-512 array as a function of its one coordinate. -/
abbrev vecOf (s : (⟨1, ![512]⟩ : Shape).Idx → EReal) : Fin 512 → EReal := fun k => s (ix1 k)

/-- A 512 × 512 array as a function of its two coordinates. -/
abbrev matOf (W : (⟨2, ![512, 512]⟩ : Shape).Idx → EReal) : Fin 512 → Fin 512 → EReal := fun k q => W (ix2 k q)

/-- The result array over the one-pass form: entry (r, q) is entry q of row r's output. -/
def arrayOnePass (X : (⟨2, ![262144, 512]⟩ : Shape).Idx → EReal) (s b : (⟨1, ![512]⟩ : Shape).Idx → EReal)
    (W : (⟨2, ![512, 512]⟩ : Shape).Idx → EReal) (c : (⟨1, ![512]⟩ : Shape).Idx → EReal) :
    (⟨2, ![262144, 512]⟩ : Shape).Idx → EReal :=
  fun i => rowOnePass (rowOf X (i 0)) (vecOf s) (vecOf b) (matOf W) (vecOf c) (i 1)

/-- The result array over the two-pass form. -/
def arrayTwoPass (X : (⟨2, ![262144, 512]⟩ : Shape).Idx → EReal) (s b : (⟨1, ![512]⟩ : Shape).Idx → EReal)
    (W : (⟨2, ![512, 512]⟩ : Shape).Idx → EReal) (c : (⟨1, ![512]⟩ : Shape).Idx → EReal) :
    (⟨2, ![262144, 512]⟩ : Shape).Idx → EReal :=
  fun i => rowTwoPass (rowOf X (i 0)) (vecOf s) (vecOf b) (matOf W) (vecOf c) (i 1)

/-- When every entry of `X` is a real number the two arrays are one. -/
theorem array_eq (X : (⟨2, ![262144, 512]⟩ : Shape).Idx → EReal) (s b : (⟨1, ![512]⟩ : Shape).Idx → EReal)
    (W : (⟨2, ![512, 512]⟩ : Shape).Idx → EReal) (c : (⟨1, ![512]⟩ : Shape).Idx → EReal)
    (hX : ∀ i, ∃ r : ℝ, X i = (r : EReal)) : arrayTwoPass X s b W c = arrayOnePass X s b W c := by
  funext i
  unfold arrayTwoPass arrayOnePass
  rw [row_eq _ _ _ _ _ (fun k => hX (ix2 (i 0) k))]

end ResidualRow

end
-- ==== Proof.LibColumnLayout.lean ====
/-
  A per-row number kept as a column, read at an index.

  A row reduction with the reduced axis kept (`keepdims`) leaves one number per row, held as an `[a, 1]` column: the
  length-`a` vector of the numbers is re-laid as a column, and the column is later repeated along each row to meet an
  `[a, b]` array. Both are pure re-layings: entry `(p, 0)` of the column is entry `p` of the vector, and entry `(p, c)` of
  the repeated column is entry `(p, 0)` of the column, whatever `c`.
-/
import Idealize.ShloMosaic.Lib.Pipeline.Value
import Idealize.ShloMosaic.Lib.ValueIdx

namespace ColumnLayout

open Idealize.ShloMosaic Idealize.ShloMosaic.ValueIdx

variable {α : Type}

/-- A length-`a` vector cast to an `[a, 1]` column reads, at `(p, 0)`, the vector at `p`: both sit at row-major
    position `p`. -/
theorem shapeCast_a_a1_apply {a : ℕ} (x : (⟨1, ![a]⟩ : Shape).Idx → α) (h : (⟨1, ![a]⟩ : Shape).ShapeCasts ⟨2, ![a, 1]⟩)
    (p : Fin a) : shapeCast ⟨2, ![a, 1]⟩ x h (ix2 p (0 : Fin 1)) = x (ix1 p) := by
  refine shapeCast_apply x h (ix2 p (0 : Fin 1)) (ix1 p) ?_
  rw [Shape.rowMajor_val_one, Shape.rowMajor_val_two]
  show p.val = p.val * 1 + 0
  omega

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end ColumnLayout
-- ==== Proof.Payload.lean ====
/-
  The kernel body's stored value, entry by entry.

  The body works on a block of 2048 rows. For each row it sums the row and the row's squares (two lane sums), scales both
  by 1/512 to get the mean and the mean of the squares, subtracts the squared mean to get the variance, adds ε and takes
  the reciprocal root; the per-row numbers are kept as columns and repeated along the rows. It then forms
  `(x - μ) · (rsqrt · scale) + shift`, clips at zero, multiplies the block by the 512 × 512 matrix (a sum over the 512
  inner positions; the change of float format before the product is the identity on extended reals) and adds the block
  and the bias back. Read at entry `(p, q)` of the block this is the one-pass row function of the block's row `p`.
-/
import proofs.«421731_j87170656240159_3_alg».proof.Proof.Gen.KernelIdeal.Skeleton
import proofs.«421731_j87170656240159_3_alg».proof.Proof.RowSpec
import proofs.«421731_j87170656240159_3_alg».proof.Proof.LibColumnLayout
import Idealize.ShloMosaic.Lib.Pipeline.Value
import Idealize.ShloMosaic.Lib.ValueLayout

noncomputable section

namespace Cert.KernelIdeal.Hand

open Cert.KernelIdeal Cert.KernelIdeal.Gen
open Idealize.ShloMosaic Idealize.ShloMosaic.ValueIdx ResidualRow ColumnLayout

/-! ## The two operations that are not entry by entry -/

/-- A row's lane sum: the sum over the row's 512 entries. -/
theorem laneSum_apply (v : FVec Ideal S2048x512 .f32) (h : S2048x512.Reduces [1] S2048) (hφ : FKind.Formats .f32)
    (hacc : (0x00000000#32 : BitVec FTy.f32.bits) = FKind.add.neutral .f32 hφ) (p : Fin 2048) :
    multiReduction .add [1] S2048 v 0x00000000#32 h hφ hacc (ix1 p) = ∑ k : Fin 512, v (ix2 p k) := by
  refine (Ideal.multiReduction_add_single v 0x00000000#32 h hφ hacc (ix1 p)).trans ?_
  refine Finset.sum_congr rfl fun k _ => congrArg v (funext fun a => Fin.ext ?_)
  match a with
  | ⟨0, _⟩ => rfl
  | ⟨1, _⟩ => rfl

/-- The matrix product's operand indices, axis by axis: the left operand is read at (row of the output, inner
    position), the right at (inner position, column of the output). -/
theorem lhs_axis0 (i : S2048x512.Idx) (t : dot_S2048x512_S512x512_S2048x512_1_0_0_1_n_n.contr.Idx) :
    (dot_S2048x512_S512x512_S2048x512_1_0_0_1_n_n.lhsIdx i t 0).val = (i 0).val := by
  unfold DotDims.lhsIdx
  rw [dif_neg (show ¬(0 : Fin S2048x512.rank) ∈ dot_S2048x512_S512x512_S2048x512_1_0_0_1_n_n.lhsBatch by decide),
    dif_pos (show (0 : Fin S2048x512.rank) ∈ dot_S2048x512_S512x512_S2048x512_1_0_0_1_n_n.lhsNonContracting by decide)]
  rfl
theorem lhs_axis1 (i : S2048x512.Idx) (t : dot_S2048x512_S512x512_S2048x512_1_0_0_1_n_n.contr.Idx) :
    (dot_S2048x512_S512x512_S2048x512_1_0_0_1_n_n.lhsIdx i t 1).val = (t ⟨0, by decide⟩).val :=
  dot_S2048x512_S512x512_S2048x512_1_0_0_1_n_n.lhsIdx_val_of_single rfl i t
theorem rhs_axis0 (i : S2048x512.Idx) (t : dot_S2048x512_S512x512_S2048x512_1_0_0_1_n_n.contr.Idx) :
    (dot_S2048x512_S512x512_S2048x512_1_0_0_1_n_n.rhsIdx i t 0).val = (t ⟨0, by decide⟩).val :=
  dot_S2048x512_S512x512_S2048x512_1_0_0_1_n_n.rhsIdx_val_of_single rfl i t
theorem rhs_axis1 (i : S2048x512.Idx) (t : dot_S2048x512_S512x512_S2048x512_1_0_0_1_n_n.contr.Idx) :
    (dot_S2048x512_S512x512_S2048x512_1_0_0_1_n_n.rhsIdx i t 1).val = (i 1).val := by
  unfold DotDims.rhsIdx
  rw [dif_neg (show ¬(1 : Fin S512x512.rank) ∈ dot_S2048x512_S512x512_S2048x512_1_0_0_1_n_n.rhsBatch by decide),
    dif_pos (show (1 : Fin S512x512.rank) ∈ dot_S2048x512_S512x512_S2048x512_1_0_0_1_n_n.rhsNonContracting by decide)]
  rfl

/-- The block times the matrix, into a zero accumulator, at entry `(p, q)`: the sum over the inner position `k` of
    the block's `(p, k)` times the matrix's `(k, q)`. -/
theorem blockProduct_apply (l : FVec Ideal S2048x512 .bf16) (r : FVec Ideal S512x512 .bf16) (p : Fin 2048) (q : Fin 512) :
    matmul dot_S2048x512_S512x512_S2048x512_1_0_0_1_n_n none l r (constant (F := Ideal) S2048x512 .f32 0x00000000#32) (ix2 p q)
      = ∑ k : Fin 512, l (ix2 p k) * r (ix2 k q) := by
  simp only [matmul]
  rw [Ideal.matmul_constant_zero_apply, ← Equiv.sum_comp (ValueIdx.contrEquiv1 dot_S2048x512_S512x512_S2048x512_1_0_0_1_n_n 512 rfl rfl).symm]
  refine Finset.sum_congr rfl fun k _ => ?_
  have hk := ValueIdx.contrEquiv1_symm_val dot_S2048x512_S512x512_S2048x512_1_0_0_1_n_n 512 rfl rfl k
  have el : dot_S2048x512_S512x512_S2048x512_1_0_0_1_n_n.lhsIdx (ix2 p q) ((ValueIdx.contrEquiv1 dot_S2048x512_S512x512_S2048x512_1_0_0_1_n_n 512 rfl rfl).symm k) = ix2 p k := funext fun a => Fin.ext (by
    match a with
    | ⟨0, _⟩ => exact lhs_axis0 _ _
    | ⟨1, _⟩ => exact (lhs_axis1 _ _).trans hk)
  have er : dot_S2048x512_S512x512_S2048x512_1_0_0_1_n_n.rhsIdx (ix2 p q) ((ValueIdx.contrEquiv1 dot_S2048x512_S512x512_S2048x512_1_0_0_1_n_n 512 rfl rfl).symm k) = ix2 k q := funext fun a => Fin.ext (by
    match a with
    | ⟨0, _⟩ => exact (rhs_axis0 _ _).trans hk
    | ⟨1, _⟩ => exact rhs_axis1 _ _)
  rw [el, er]

/-! ## Entry by entry -/

theorem rsqrt_apply {s : Shape} (x : FVec Ideal s .f32) (i : s.Idx) : rsqrt x i = Ideal.rsqrt (x i) := rfl

theorem scalar_ofBits (b : BitVec 32) : Scalar.ofBits (F := Ideal) .f32 b = Ideal.ofBits .f32 b := rfl

/-- What the body stores, at entry `(p, q)` of the block: the one-pass row function of the block's row `p`, with the
    scale, the shift and the bias read off their one-row blocks. -/
theorem payload_apply (v0 : FVec Ideal S2048x512 .f32) (v15 v23 : FVec Ideal S1x512 .f32) (v30 : FVec Ideal S512x512 .bf16)
    (v34 : FVec Ideal S1x512 .f32) (p : Fin 2048) (q : Fin 512) :
    k0_pay1 (F := Ideal) v0 v15 v23 v30 v34 (ix2 p q)
      = rowOnePass (fun k => v0 (ix2 p k)) (fun k => v15 (ix2 (0 : Fin 1) k)) (fun k => v23 (ix2 (0 : Fin 1) k))
          (fun k j => v30 (ix2 k j)) (fun j => v34 (ix2 (0 : Fin 1) j)) q := by
  unfold k0_pay1 rowOnePass hiddenOnePass varOnePass mean
  simp only [addf_apply, mulf_apply, subf_apply, maximumf_apply, broadcast_apply, truncf_apply, rsqrt_apply, shapeCast_self,
    blockProduct_apply, laneSum_apply, shapeCast_a_a1_apply, broadcastTo_a1_ab_apply, broadcastTo_1b_ab_apply,
    scalar_ofBits, Ideal.ofBits_zero_f32, ofBits_inv512]
  -- the two lane sums: of the row, and of the row's squares
  erw [laneSum_apply v0 _ _ _ p, laneSum_apply (mulf v0 v0) _ _ _ p]
  simp only [mulf_apply]

end Cert.KernelIdeal.Hand

end
-- ==== Proof.Blocks.lean ====
/-
  From the blocks to the whole array.

  The grid has 128 points. Point `t` stages rows `2048 t … 2048 t + 2047` of the input as its block, the scale, the
  shift, the matrix and the bias whole at every point, and writes its result back to the same rows of the output. The
  matrix the kernel stages is the argument matrix after a change of float format, which is the identity on extended reals;
  the scale, shift and bias it stages are the arguments re-laid from a length-512 vector to a single row.

  What point `t` writes at `(p, q)` of its block is the one-pass row function of the block's row `p`, that is, of the
  input's row `2048 t + p`: entry `(2048 t + p, q)` of the result array. The 128 blocks cover every row exactly once
  (row `r` lies in the block of point `r / 2048`), so the output array after the run is the result array.
-/
import proofs.«421731_j87170656240159_3_alg».proof.Proof.Gen.KernelIdeal.Value
import proofs.«421731_j87170656240159_3_alg».proof.Proof.Payload
import Idealize.ShloMosaic.Lib.StableHlo.Run
import Idealize.ShloMosaic.Lib.Pipeline.Value
import Idealize.ShloMosaic.Lib.ValueLayout

noncomputable section

namespace Cert.KernelIdeal.Hand

open Cert.KernelIdeal Cert.KernelIdeal.Gen Cert.KernelIdeal.Value
open Idealize.ShloMosaic Idealize.ShloMosaic.TcCoe Idealize.SL.Sem Idealize.ShloMosaic.StableHlo
open Idealize.ShloMosaic.ValueIdx ResidualRow
open Idealize.ShloMosaic.Pipeline (Dat)

variable (m : (ℓ : Loc nD τ sig) → Buf (Elt Ideal) ℓ) (ρ : Dev nD → PrngReg)

/-- The result array: the one-pass row function of each row of the first argument. -/
abbrev result (c : Dev nD) : S262144x512.Idx → EReal :=
  arrayOnePass (m ((c : Thread nD τ).loc main_arg0)) (m ((c : Thread nD τ).loc main_arg1)) (m ((c : Thread nD τ).loc main_arg2))
    (m ((c : Thread nD τ).loc main_arg3)) (m ((c : Thread nD τ).loc main_arg4))

theorem hz : (![0, 0] : Fin 2 → Nat) = fun _ => 0 := funext fun a => by fin_cases a <;> rfl

/-! ## Where each window's block sits -/

/-- The block index of each window at each point: the input and the output at block `(t, 0)`, the four others at their
    one block. Decided over the 128 points. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## The arrays the four small windows stage, as the region finds them -/

/-- The scale as one row: entry `(0, k)` is the scale's entry `k`. -/
theorem scale_at (c : Dev nD) (k : Fin 512) :
    (V m c main_v1 : S1x512.Idx → EReal) (ix2 (0 : Fin 1) k) = (m ((c : Thread nD τ).loc main_arg1) : S512.Idx → EReal) (ix1 k) := by
  have e : (V m c main_v1 : S1x512.Idx → EReal) = shapeCast S1x512 (m ((c : Thread nD τ).loc main_arg1)) shapeCasts_S512_S1x512 := by
    dsimp only [Gen.V, Gen.hostOps0]; after_results; rfl
  rw [e]
  exact shapeCast_a_1a_apply _ _ 0 k

/-- The shift as one row. -/
theorem shift_at (c : Dev nD) (k : Fin 512) :
    (V m c main_v2 : S1x512.Idx → EReal) (ix2 (0 : Fin 1) k) = (m ((c : Thread nD τ).loc main_arg2) : S512.Idx → EReal) (ix1 k) := by
  have e : (V m c main_v2 : S1x512.Idx → EReal) = shapeCast S1x512 (m ((c : Thread nD τ).loc main_arg2)) shapeCasts_S512_S1x512 := by
    dsimp only [Gen.V, Gen.hostOps0]; after_results; rfl
  rw [e]
  exact shapeCast_a_1a_apply _ _ 0 k

/-- The bias as one row. -/
theorem bias_at (c : Dev nD) (k : Fin 512) :
    (V m c main_v3 : S1x512.Idx → EReal) (ix2 (0 : Fin 1) k) = (m ((c : Thread nD τ).loc main_arg4) : S512.Idx → EReal) (ix1 k) := by
  have e : (V m c main_v3 : S1x512.Idx → EReal) = shapeCast S1x512 (m ((c : Thread nD τ).loc main_arg4)) shapeCasts_S512_S1x512 := by
    dsimp only [Gen.V, Gen.hostOps0]; after_results; rfl
  rw [e]
  exact shapeCast_a_1a_apply _ _ 0 k

/-- The matrix after the change of float format: the argument matrix, entry by entry. -/
theorem matrix_at (c : Dev nD) (i : S512x512.Idx) :
    (V m c main_v0 : S512x512.Idx → EReal) i = (m ((c : Thread nD τ).loc main_arg3) : S512x512.Idx → EReal) i := by
  have e : V m c main_v0
      = (truncf .bf16 (m ((c : Thread nD τ).loc main_arg3) : FVec Ideal S512x512 .f32) bitsLt_bf16_f32 : FVec Ideal S512x512 .bf16) := by
    dsimp only [Gen.V, Gen.hostOps0]; after_results
  rw [e]
  rfl

/-! ## Each window's block at a point, entry by entry -/

/-- The input's block at point `t`: its row `p` is the input's row `2048 t + p`. -/
theorem input_block_at (c : Dev nD) (t : Fin cfg0.N) (p : Fin 2048) (k : Fin 512) (r : Fin 262144) (hr : r.val = t.val * 2048 + p.val) :
    (iblk m c 0 t : S2048x512.Idx → EReal) (ix2 p k) = (m ((c : Thread nD τ).loc main_arg0) : S262144x512.Idx → EReal) (ix2 r k) := by
  obtain ⟨e0, e1, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 2) * 2048 + 1 * p.val = r.val; rw [e0, hr]; omega
  | ⟨1, _⟩ => show win0_0.index t (1 : Fin 2) * 512 + 1 * k.val = k.val; rw [e1]; omega

/-- The scale's block, at every point, is the scale. -/
theorem scale_block_at (c : Dev nD) (t : Fin cfg0.N) (k : Fin 512) :
    (iblk m c 1 t : S1x512.Idx → EReal) (ix2 (0 : Fin 1) k) = (m ((c : Thread nD τ).loc main_arg1) : S512.Idx → EReal) (ix1 k) := by
  obtain ⟨-, -, e0, e1, -⟩ := idx_facts t
  unfold iblk
  rw [View.read_apply]
  show V m c main_v1 _ = _
  refine (congrArg (V m c main_v1) (funext fun a => Fin.ext ?_)).trans (scale_at m c k)
  match a with
  | ⟨0, _⟩ => show win0_1.index t (0 : Fin 2) * 1 + 1 * 0 = 0; rw [e0]
  | ⟨1, _⟩ => show win0_1.index t (1 : Fin 2) * 512 + 1 * k.val = k.val; rw [e1]; omega

/-- The shift's block, at every point, is the shift. -/
theorem shift_block_at (c : Dev nD) (t : Fin cfg0.N) (k : Fin 512) :
    (iblk m c 2 t : S1x512.Idx → EReal) (ix2 (0 : Fin 1) k) = (m ((c : Thread nD τ).loc main_arg2) : S512.Idx → EReal) (ix1 k) := by
  obtain ⟨-, -, -, -, e0, e1, -⟩ := idx_facts t
  unfold iblk
  rw [View.read_apply]
  show V m c main_v2 _ = _
  refine (congrArg (V m c main_v2) (funext fun a => Fin.ext ?_)).trans (shift_at m c k)
  match a with
  | ⟨0, _⟩ => show win0_2.index t (0 : Fin 2) * 1 + 1 * 0 = 0; rw [e0]
  | ⟨1, _⟩ => show win0_2.index t (1 : Fin 2) * 512 + 1 * k.val = k.val; rw [e1]; omega

/-- The matrix's block, at every point, is the matrix. -/
theorem matrix_block_at (c : Dev nD) (t : Fin cfg0.N) (k j : Fin 512) :
    (iblk m c 3 t : S512x512.Idx → EReal) (ix2 k j) = (m ((c : Thread nD τ).loc main_arg3) : S512x512.Idx → EReal) (ix2 k j) := by
  obtain ⟨-, -, -, -, -, -, e0, e1, -⟩ := idx_facts t
  unfold iblk
  rw [View.read_apply]
  show V m c main_v0 _ = _
  refine (congrArg (V m c main_v0) (funext fun a => Fin.ext ?_)).trans (matrix_at m c (ix2 k j))
  match a with
  | ⟨0, _⟩ => show win0_3.index t (0 : Fin 2) * 512 + 1 * k.val = k.val; rw [e0]; omega
  | ⟨1, _⟩ => show win0_3.index t (1 : Fin 2) * 512 + 1 * j.val = j.val; rw [e1]; omega

/-- The bias's block, at every point, is the bias. -/
theorem bias_block_at (c : Dev nD) (t : Fin cfg0.N) (k : Fin 512) :
    (iblk m c 4 t : S1x512.Idx → EReal) (ix2 (0 : Fin 1) k) = (m ((c : Thread nD τ).loc main_arg4) : S512.Idx → EReal) (ix1 k) := by
  obtain ⟨-, -, -, -, -, -, -, -, e0, e1, -⟩ := idx_facts t
  unfold iblk
  rw [View.read_apply]
  show V m c main_v3 _ = _
  refine (congrArg (V m c main_v3) (funext fun a => Fin.ext ?_)).trans (bias_at m c k)
  match a with
  | ⟨0, _⟩ => show win0_4.index t (0 : Fin 2) * 1 + 1 * 0 = 0; rw [e0]
  | ⟨1, _⟩ => show win0_4.index t (1 : Fin 2) * 512 + 1 * k.val = k.val; rw [e1]; omega

/-! ## What a point writes back -/

/-- Point `t` writes back block `t` of the result array. -/
theorem flushed_eq (c : Dev nD) (t : Fin cfg0.N) :
    (dats m 0 c).flushed 5 t = ((cfg0.win 5).blk t).view.read (Elt Ideal) (result m c) := by
  rw [Value.flushed5]
  unfold out0_5
  rw [View.canon_unit_zero hz]
  simp only [View.ld_unit_zero (S := S2048x512) hz, View.ld_unit_zero (S := S1x512) hz, View.ld_unit_zero (S := S512x512) hz]
  funext j
  obtain ⟨p, q, rfl⟩ : ∃ (p : Fin 2048) (q : Fin 512), j = ix2 p q := ⟨j 0, j 1, eq_ix2 j⟩
  obtain ⟨-, -, -, -, -, -, -, -, -, -, e0, e1⟩ := idx_facts t
  have hN : cfg0.N = 128 := N_0
  have ht : t.val < 128 := hN ▸ t.isLt
  -- the row of the array that row `p` of block `t` is
  let r : Fin 262144 := ⟨t.val * 2048 + p.val, by have := p.isLt; omega⟩
  have hemb : ((cfg0.win 5).blk t).view.emb (ix2 p q) = (ix2 r q : S262144x512.Idx) := by
    funext a
    apply Fin.ext
    match a with
    | ⟨0, _⟩ => show win0_5.index t (0 : Fin 2) * 2048 + 1 * p.val = t.val * 2048 + p.val; rw [e0]; omega
    | ⟨1, _⟩ => show win0_5.index t (1 : Fin 2) * 512 + 1 * q.val = q.val; rw [e1]; omega
  rw [View.read_apply, hemb]
  show k0_pay1 (F := Ideal) (iblk m c 0 t) (iblk m c 1 t) (iblk m c 2 t) (iblk m c 3 t) (iblk m c 4 t) (ix2 p q)
    = rowOnePass (rowOf (m ((c : Thread nD τ).loc main_arg0)) r) (vecOf (m ((c : Thread nD τ).loc main_arg1)))
        (vecOf (m ((c : Thread nD τ).loc main_arg2))) (matOf (m ((c : Thread nD τ).loc main_arg3)))
        (vecOf (m ((c : Thread nD τ).loc main_arg4))) q
  refine (payload_apply (iblk m c 0 t) (iblk m c 1 t) (iblk m c 2 t) (iblk m c 3 t) (iblk m c 4 t) p q).trans ?_
  have h0 : (fun k => (iblk m c 0 t : S2048x512.Idx → EReal) (ix2 p k)) = rowOf (m ((c : Thread nD τ).loc main_arg0)) r :=
    funext fun k => input_block_at m c t p k r rfl
  have h1 : (fun k => (iblk m c 1 t : S1x512.Idx → EReal) (ix2 (0 : Fin 1) k)) = vecOf (m ((c : Thread nD τ).loc main_arg1)) :=
    funext fun k => scale_block_at m c t k
  have h2 : (fun k => (iblk m c 2 t : S1x512.Idx → EReal) (ix2 (0 : Fin 1) k)) = vecOf (m ((c : Thread nD τ).loc main_arg2)) :=
    funext fun k => shift_block_at m c t k
  have h3 : (fun k j => (iblk m c 3 t : S512x512.Idx → EReal) (ix2 k j)) = matOf (m ((c : Thread nD τ).loc main_arg3)) :=
    funext fun k => funext fun j => matrix_block_at m c t k j
  have h4 : (fun k => (iblk m c 4 t : S1x512.Idx → EReal) (ix2 (0 : Fin 1) k)) = vecOf (m ((c : Thread nD τ).loc main_arg4)) :=
    funext fun k => bias_block_at m c t k
  rw [h0, h1, h2, h3, h4]

/-! ## The blocks cover the array -/

/-- An index is in point `t`'s block iff each coordinate is in the block's range on its axis. -/
theorem mem_blk (t : Fin cfg0.N) (i : S262144x512.Idx) :
    i ∈ ((cfg0.win 5).blk t).view.set ↔ ∀ a : Fin 2, win0_5.index t a * S2048x512.size a ≤ (i a).val
      ∧ (i a).val < win0_5.index t a * S2048x512.size a + S2048x512.size a := by
  show i ∈ ((View.whole main_v4).slice (win0_5.rect t)).set ↔ _
  rw [View.set_slice_whole, Rect.mem_set_unit]
  exact Iff.rfl

/-- Every index of the array is in some point's block: row `r` in the block of point `r / 2048`. -/
theorem covered (i : S262144x512.Idx) : ∃ t : Fin cfg0.N, (cfg0.win 5).flush t = true ∧ i ∈ ((cfg0.win 5).blk t).view.set := by
  have hi0 : (i 0).val < 262144 := (i 0).isLt
  have hi1 : (i 1).val < 512 := (i 1).isLt
  have hN : cfg0.N = 128 := N_0
  let t : Fin cfg0.N := ⟨(i 0).val / 2048, by omega⟩
  obtain ⟨-, -, -, -, -, -, -, -, -, -, e0, e1⟩ := idx_facts t
  refine ⟨t, flush0_5 t, ?_⟩
  rw [mem_blk]
  intro a
  match a with
  | ⟨0, _⟩ =>
    show win0_5.index t (0 : Fin 2) * 2048 ≤ (i 0).val ∧ (i 0).val < win0_5.index t (0 : Fin 2) * 2048 + 2048
    rw [e0]
    show (i 0).val / 2048 * 2048 ≤ (i 0).val ∧ (i 0).val < (i 0).val / 2048 * 2048 + 2048
    omega
  | ⟨1, _⟩ =>
    show win0_5.index t (1 : Fin 2) * 512 ≤ (i 1).val ∧ (i 1).val < win0_5.index t (1 : Fin 2) * 512 + 512
    rw [e1]
    omega

/-! ## The array after the run, and the run -/

/-- The output array after the run is the result array. -/
theorem final (c : Dev nD) : (dats m 0 c).arrAt 5 cfg0.N = result m c :=
  (dats m 0 c).arrAt_eq_of_cover 5 (result m c) (fun t _ => flushed_eq m c t) covered

/-- The kernel's run: the output array ends at the result array, the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Hand

end
-- ==== Proof.RefIsSpec.lean ====
/-
  The reference's result is the residual block over the two-pass variance.

  The reference is read one operation at a time. Its row sums are sums over the 512 entries of a row; its mean and
  variance divide them by 512; every broadcast only repeats a per-row or a per-column number along the other axis. Read
  at entry (r, q) the composition is
      x (r, q) + ∑ₖ max ((x (r, k) - μ_r) · rsqrt (σ²_r + ε) · scale k + shift k, 0) · W (k, q) + bias q,
  with μ_r the mean of row r and σ²_r the mean of its squared deviations from μ_r: the two-pass row function of row r.
-/
import proofs.«421731_j87170656240159_3_alg».proof.Proof.Gen.ReferenceIdeal.Read
import proofs.«421731_j87170656240159_3_alg».proof.Proof.RowSpec

noncomputable section

namespace Cert.ReferenceIdeal.RefValue

open Cert.ReferenceIdeal Cert.ReferenceIdeal.Gen Cert.ReferenceIdeal.Read
open Idealize.ShloMosaic Idealize.ShloMosaic.ValueIdx ResidualRow

/-! ## Where each broadcast and each sum reads its operand -/

/-- A per-row column, broadcast along the row, is read at the row. -/
theorem at_row4 (r : Fin 262144) (q : Fin 512) : idx_main_v4 (ix2 r q) = ix2 r (0 : Fin 1) :=
  funext fun a => by match a with | ⟨0, _⟩ => rfl | ⟨1, _⟩ => rfl
theorem at_row11 (r : Fin 262144) (q : Fin 512) : idx_main_v11 (ix2 r q) = ix2 r (0 : Fin 1) :=
  funext fun a => by match a with | ⟨0, _⟩ => rfl | ⟨1, _⟩ => rfl
theorem at_row16 (r : Fin 262144) (q : Fin 512) : idx_main_v16 (ix2 r q) = ix2 r (0 : Fin 1) :=
  funext fun a => by match a with | ⟨0, _⟩ => rfl | ⟨1, _⟩ => rfl

/-- A per-row number placed in a column is read at the row. -/
theorem at_col1 (r : Fin 262144) : idx_main_v1 (ix2 r (0 : Fin 1)) = ix1 r :=
  funext fun a => by match a with | ⟨0, _⟩ => rfl
theorem at_col8 (r : Fin 262144) : idx_main_v8 (ix2 r (0 : Fin 1)) = ix1 r :=
  funext fun a => by match a with | ⟨0, _⟩ => rfl

/-- A row sum's k-th term is entry k of the row. -/
theorem at_sum0 (r : Fin 262144) (k : Fin 512) : idx_main_v0 (ix1 r) k = ix2 r k :=
  funext fun a => by match a with | ⟨0, _⟩ => rfl | ⟨1, _⟩ => rfl
theorem at_sum7 (r : Fin 262144) (k : Fin 512) : idx_main_v7 (ix1 r) k = ix2 r k :=
  funext fun a => by match a with | ⟨0, _⟩ => rfl | ⟨1, _⟩ => rfl

/-- A per-column vector, laid as one row and broadcast down the rows, is read at the column. -/
theorem at_lane19 (r : Fin 262144) (q : Fin 512) : idx_main_v19 (ix2 r q) = ix2 (0 : Fin 1) q :=
  funext fun a => by match a with | ⟨0, _⟩ => rfl | ⟨1, _⟩ => rfl
theorem at_lane22 (r : Fin 262144) (q : Fin 512) : idx_main_v22 (ix2 r q) = ix2 (0 : Fin 1) q :=
  funext fun a => by match a with | ⟨0, _⟩ => rfl | ⟨1, _⟩ => rfl
theorem at_lane28 (r : Fin 262144) (q : Fin 512) : idx_main_v28 (ix2 r q) = ix2 (0 : Fin 1) q :=
  funext fun a => by match a with | ⟨0, _⟩ => rfl | ⟨1, _⟩ => rfl
theorem at_vec18 (q : Fin 512) : idx_main_v18 (ix2 (0 : Fin 1) q) = ix1 q :=
  funext fun a => by match a with | ⟨0, _⟩ => rfl
theorem at_vec21 (q : Fin 512) : idx_main_v21 (ix2 (0 : Fin 1) q) = ix1 q :=
  funext fun a => by match a with | ⟨0, _⟩ => rfl
theorem at_vec27 (q : Fin 512) : idx_main_v27 (ix2 (0 : Fin 1) q) = ix1 q :=
  funext fun a => by match a with | ⟨0, _⟩ => rfl

/-- The matrix product's k-th term at (r, q): entry k of row r times entry (k, q) of the matrix. -/
theorem at_lhs (r : Fin 262144) (q k : Fin 512) : lidx_main_v25 (ix2 r q) k = ix2 r k :=
  funext fun a => by match a with | ⟨0, _⟩ => rfl | ⟨1, _⟩ => rfl
theorem at_rhs (r : Fin 262144) (q k : Fin 512) : ridx_main_v25 (ix2 r q) k = ix2 k q :=
  funext fun a => by match a with | ⟨0, _⟩ => rfl | ⟨1, _⟩ => rfl

/-! ## The stages -/

variable (x0 : S262144x512.Idx → EReal) (x1 x2 : S512.Idx → EReal) (x3 : S512x512.Idx → EReal) (x4 : S512.Idx → EReal)

/-- The per-row mean: the row's sum divided by 512. -/
theorem mean_stage (r : Fin 262144) : val_main_v3 (F := Ideal) x0 (ix2 r (0 : Fin 1)) = mean (rowOf x0 r) := by
  simp only [val_main_v3_apply, val_main_v1_apply, val_main_v2_apply, val_main_cst_0_apply, at_col1, val_main_v0_apply,
    val_main_cst_apply, at_sum0, Ideal.hostDivf_def, Ideal.ofBits_def, Ideal.ofBits_zero_f32, zero_add, ofBits_512, div_512]
  rfl

/-- The per-row variance: the sum of the squared deviations from the mean, divided by 512. -/
theorem var_stage (r : Fin 262144) : val_main_v10 (F := Ideal) x0 (ix2 r (0 : Fin 1)) = varTwoPass (rowOf x0 r) := by
  simp only [val_main_v10_apply, val_main_v8_apply, val_main_v9_apply, val_main_cst_2_apply, at_col8, val_main_v7_apply,
    val_main_cst_1_apply, at_sum7, val_main_v6_apply, val_main_v5_apply, val_main_v4_apply, at_row4, mean_stage,
    Ideal.hostDivf_def, Ideal.ofBits_def, Ideal.ofBits_zero_f32, zero_add, ofBits_512, div_512, Ideal.mulf_def, Ideal.subf_def]
  rfl

/-- The normalised row, scaled, shifted and clipped at zero. -/
theorem hidden_stage (r : Fin 262144) (k : Fin 512) :
    val_main_v24 (F := Ideal) x0 x1 x2 (ix2 r k) = hiddenTwoPass (rowOf x0 r) (vecOf x1) (vecOf x2) k := by
  simp only [val_main_v24_apply, val_main_v23_apply, val_main_v20_apply, val_main_v22_apply, val_main_v21_apply, at_lane22,
    at_vec21, val_main_v17_apply, val_main_v19_apply, val_main_v18_apply, at_lane19, at_vec18, val_main_v12_apply,
    val_main_v16_apply, val_main_v11_apply, at_row11, at_row16, val_main_v15_apply, val_main_v14_apply, val_main_v13_apply,
    val_main_cst_3_apply, val_main_call0_v0_apply, val_main_call0_cst_apply, mean_stage, var_stage,
    Ideal.hostUnary_rsqrt_def, Ideal.ofBits_def, Ideal.ofBits_zero_f32, Ideal.mulf_def, Ideal.subf_def, Ideal.addf_def,
    Ideal.maximumf_def]
  rfl

/-- The reference's result, entry by entry, is the two-pass row function of the entry's row. -/
theorem result_eq : val_main_v29 (F := Ideal) x0 x1 x2 x3 x4 = arrayTwoPass x0 x1 x2 x3 x4 := by
  funext i
  obtain ⟨r, q, rfl⟩ : ∃ (r : Fin 262144) (q : Fin 512), i = ix2 r q := ⟨i 0, i 1, eq_ix2 i⟩
  simp only [val_main_v29_apply, val_main_v26_apply, val_main_v28_apply, val_main_v27_apply, at_lane28, at_vec27,
    val_main_v25_apply, at_lhs, at_rhs, hidden_stage, Ideal.addf_def]
  rfl

end Cert.ReferenceIdeal.RefValue

end
-- ==== Proof.Finite.lean ====
/-
  Under the precondition every entry of the first argument is a real number.

  The precondition is the conjunction, over the five argument arrays, of "every entry's absolute value is below +∞".
  The conjunction being one, each conjunct is one; the first conjunct is an `and` over all entries of the array of
  comparisons, so each comparison is one: `max (x i) (-(x i)) < ⊤`. An extended real whose absolute value is below `⊤` is
  neither `⊤` nor `⊥`, hence a real number.
-/
import proofs.«421731_j87170656240159_3_alg».proof.Pre_finite_inputs
import Idealize.ShloMosaic.Lib.ReduceAll
import Idealize.ShloMosaic.Lib.ValueIdx
import Idealize.ShloMosaic.PureOps.Ideal

noncomputable section

namespace Cert.Pre_finite_inputs.Hand

open Idealize.ShloMosaic Cert.Pre_finite_inputs

/-- The pattern of +∞ denotes `⊤`. -/
theorem ofBits_inf : Ideal.ofBits .f32 0x7F800000#32 = (⊤ : EReal) := by
  simp [Ideal.ofBits, Ideal.ieee]

/-- An extended real whose absolute value is below `⊤` is a real number. -/
theorem real_of_abs_lt_top (x : EReal) (h : max x (-x) < ⊤) : ∃ r : ℝ, x = (r : EReal) := by
  induction x using EReal.rec with
  | bot => simp at h
  | top => simp at h
  | coe r => exact ⟨r, rfl⟩

/-- A comparison `a < b` that is one holds. -/
theorem lt_of_cmp_olt (a b : EReal) (h : Ideal.cmp .olt a b = 1#1) : a < b := by
  by_contra hn
  have h0 : Ideal.cmp .olt a b = 0#1 := by simp [Ideal.cmp, hn]
  rw [h0] at h
  exact absurd h (by decide)

/-- The scalar shape has one index. -/
instance : Subsingleton S_.Idx := ⟨fun a b => funext fun d => d.elim0⟩

/-- Under the precondition every entry of the first argument is a real number. -/
theorem arg0_real [Facts] (x0 : FVec Ideal S262144x512 .f32) (x1 x2 : FVec Ideal S512 .f32) (x3 : FVec Ideal S512x512 .f32)
    (x4 : FVec Ideal S512 .f32) (h : fn (F := Ideal) x0 x1 x2 x3 x4 = fun _ => 1#1) (i : S262144x512.Idx) :
    ∃ r : ℝ, x0 i = (r : EReal) := by
  have h0 := congrFun h ValueIdx.ix0
  dsimp only [fn, fn_part1] at h0
  obtain ⟨h1, -⟩ := IntOp.andi_eq_one.1 h0
  obtain ⟨h2, -⟩ := IntOp.andi_eq_one.1 h1
  obtain ⟨h3, -⟩ := IntOp.andi_eq_one.1 h2
  obtain ⟨h4, -⟩ := IntOp.andi_eq_one.1 h3
  have h5 := Host.reduce_andi_all _ _ _ _ _ h4 i
  have h6 : Ideal.cmp .olt (max (x0 i) (-(x0 i))) (Ideal.ofBits .f32 0x7F800000#32) = 1#1 := h5
  rw [ofBits_inf] at h6
  exact real_of_abs_lt_top _ (lt_of_cmp_olt _ _ h6)

end Cert.Pre_finite_inputs.Hand

end
-- ==== Proof.lean ====
/-
  A residual block: layer normalisation of each row, clipped at zero, through a 512 × 512 matrix, added back onto the row.

  Per row `x` of 512 entries the kernel and the reference both compute
      x q + ∑ₖ max ((x k - μ) · rsqrt (σ² + ε) · scale k + shift k, 0) · W k q + bias q,
  with `μ` the row's mean. They differ in three places, none of which changes the value on the extended reals:
    · the kernel multiplies by `2⁻⁹` where the reference divides by 512: the same on every extended real;
    · the kernel groups `(x k - μ) · (rsqrt · scale k)` where the reference groups `((x k - μ) · rsqrt) · scale k`:
      multiplication is associative;
    · the kernel takes the variance as the mean of the squares less the squared mean, the reference as the mean of the squared
      deviations from the mean: the same number when the row's entries are real numbers, which the precondition gives.
  The kernel also changes the float format of the clipped row and of the matrix before the product, which is the identity here.

  The kernel works block by block, 2048 rows at a time over 128 grid points; a row's output depends on that row only, so
  the blocks' results are the rows of one array (Proof/Blocks.lean over Proof/Payload.lean). The reference is read one
  operation at a time (Proof/RefIsSpec.lean). Both are set against one row function (Proof/RowSpec.lean); the second-moment
  identity is Proof/LibCenteredMoment.lean, and that the first argument's entries are real numbers is Proof/Finite.lean.
  The three frames are the programs' runs with the result dropped; nothing was rewritten between the kernel and its
  idealisation, so that conjunct is trivial.
-/
import proofs.«421731_j87170656240159_3_alg».proof.Defs
import proofs.«421731_j87170656240159_3_alg».proof.Proof.Gen.Kernel
import proofs.«421731_j87170656240159_3_alg».proof.Proof.Gen.Kernel.Skeleton
import proofs.«421731_j87170656240159_3_alg».proof.Proof.Gen.Kernel.Launch
import proofs.«421731_j87170656240159_3_alg».proof.Proof.Gen.Kernel.Points
import proofs.«421731_j87170656240159_3_alg».proof.Proof.Gen.Kernel.Frame
import proofs.«421731_j87170656240159_3_alg».proof.Proof.Gen.KernelIdeal
import proofs.«421731_j87170656240159_3_alg».proof.Proof.Gen.KernelIdeal.Skeleton
import proofs.«421731_j87170656240159_3_alg».proof.Proof.Gen.KernelIdeal.Launch
import proofs.«421731_j87170656240159_3_alg».proof.Proof.Gen.KernelIdeal.Points
import proofs.«421731_j87170656240159_3_alg».proof.Proof.Gen.KernelIdeal.Frame
import proofs.«421731_j87170656240159_3_alg».proof.Proof.Gen.ReferenceIdeal
import proofs.«421731_j87170656240159_3_alg».proof.Proof.Gen.Pre_finite_inputs
import proofs.«421731_j87170656240159_3_alg».proof.Proof.Gen.KernelIdeal.Value
import proofs.«421731_j87170656240159_3_alg».proof.Proof.Gen.ReferenceIdeal.Run
import proofs.«421731_j87170656240159_3_alg».proof.Proof.Gen.ReferenceIdeal.Read
import proofs.«421731_j87170656240159_3_alg».proof.Proof.Blocks
import proofs.«421731_j87170656240159_3_alg».proof.Proof.RefIsSpec
import proofs.«421731_j87170656240159_3_alg».proof.Proof.Finite
import Idealize.ShloMosaic.Adequacy
import Idealize.ShloMosaic.Init

noncomputable section

namespace Cert.Proof

open Idealize.ShloMosaic Idealize.SL.Sem

/-- The kernel as printed runs to the end and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments, the kernel's output array ends at the one-pass row function of each row of
    the first argument, and the reference's result at the two-pass row function of each row; the precondition makes every
    entry of the first argument a real number, and then the two arrays are one. -/
theorem algebraic : Cert.algebraic_KernelIdeal_ReferenceIdeal := by
  intro m ρ m' ρ' hpre hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, Cert.ReferenceIdeal.RefValue.result_eq,
    (hagree c).1, (hagree c).2.1, (hagree c).2.2.1, (hagree c).2.2.2.1, (hagree c).2.2.2.2]
  exact ResidualRow.array_eq _ _ _ _ _ (fun i => Cert.Pre_finite_inputs.Hand.arg0_real _ _ _ _ _ (hpre c) i)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
